-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x512 : Shape := ⟨3, ![16, 1024, 512]⟩
abbrev S_ : Shape := ⟨0, ![]⟩

class Facts : Prop where
  bcast_S_S16x1024x512 : S_.BroadcastsInDim S16x1024x512 (![] : Fin 0 → Fin S16x1024x512.rank)
  reducesTo_S16x1024x512_S_d0_1_2 : S16x1024x512.ReducesTo [0, 1, 2] S_
  h_S_ : 0 < S_.numel

variable [Facts]

def fn {F : FTy → Type} [FloatOps F] (main_arg0 : FVec F S16x1024x512 .f32) (main_arg1 : FVec F S16x1024x512 .f32) : IVec S_ 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_c : IVec S_ 1 := constantI S_ 1 1#1
  let main_v3 : IVec S_ 1 := (fun x v => Host.reduce IntOp.andi x v reducesTo_S16x1024x512_S_d0_1_2 h_S_) main_v2 main_c
  let main_v4 : FVec F S16x1024x512 .f32 := Host.absf main_arg1
  let main_cst_0 : FVec F S_ .f32 := constant S_ .f32 0x7F800000#32
  let main_v5 : FVec F S16x1024x512 .f32 := broadcastInDim S16x1024x512 ![] bcast_S_S16x1024x512 main_cst_0
  let main_v6 : IVec S16x1024x512 1 := cmpf .olt main_v4 main_v5
  let main_c_1 : IVec S_ 1 := constantI S_ 1 1#1
  let main_v7 : IVec S_ 1 := (fun x v => Host.reduce IntOp.andi x v reducesTo_S16x1024x512_S_d0_1_2 h_S_) main_v6 main_c_1
  let main_v8 : IVec S_ 1 := andi main_v3 main_v7
  main_v8
-- ==== Kernel.lean ====
abbrev S16x1024x512 : Shape := ⟨3, ![16, 1024, 512]⟩
abbrev S16x1024x1024 : Shape := ⟨3, ![16, 1024, 1024]⟩
abbrev S1x512x512 : Shape := ⟨3, ![1, 512, 512]⟩
abbrev S1x1024x512 : Shape := ⟨3, ![1, 1024, 512]⟩
abbrev S1x512x1024 : Shape := ⟨3, ![1, 512, 1024]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S16x1024x1024, .f32⟩
  | .local _ .vmem, ⟨0, _⟩ => ⟨S1x512x512, .f32⟩
  | .local _ .vmem, ⟨1, _⟩ => ⟨S1x512x512, .f32⟩
  | .local _ .vmem, ⟨2, _⟩ => ⟨S1x1024x512, .f32⟩
  | .local _ .vmem, ⟨3, _⟩ => ⟨S1x1024x512, .f32⟩
  | .local _ .vmem, ⟨4, _⟩ => ⟨S1x512x1024, .f32⟩
  | .local _ .vmem, ⟨5, _⟩ => ⟨S1x512x1024, .f32⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  reduces_S512x512_S512 : S512x512.Reduces [1] S512
  shapeCasts_S512_S512x1 : S512.ShapeCasts S512x1
  reduces_S1024x512_S1024 : S1024x512.Reduces [1] S1024
  shapeCasts_S1024_S1x1024 : S1024.ShapeCasts S1x1024
  broadcasts_S512x1_S512x1024 : S512x1.Broadcasts S512x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S16x1024x512.size a
  hwx0_0 : ∀ i : grid0.Coords, EltTy.bits .f32 = 32 ∨ (Rect.block (s := S16x1024x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x1024x512.size a
  hwx0_1 : ∀ i : grid0.Coords, EltTy.bits .f32 = 32 ∨ (Rect.block (s := S16x1024x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x1024x1024.size a
  hwx0_2 : ∀ i : grid0.Coords, EltTy.bits .f32 = 32 ∨ (Rect.block (s := S16x1024x1024) S1x512x1024.size (cc0_transform_2 i) (hinb0_2 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x512 : Shape := ⟨3, ![16, 1024, 512]⟩
abbrev S_ : Shape := ⟨0, ![]⟩
abbrev S16x1024 : Shape := ⟨2, ![16, 1024]⟩
abbrev S16x1024x1024 : Shape := ⟨3, ![16, 1024, 1024]⟩
abbrev S16x1024x1 : Shape := ⟨3, ![16, 1024, 1]⟩
abbrev S16x1x1024 : Shape := ⟨3, ![16, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S16x1024x512, .f32⟩
  | .hbm, ⟨3, _⟩ => ⟨S_, .f32⟩
  | .hbm, ⟨4, _⟩ => ⟨S16x1024, .f32⟩
  | .hbm, ⟨5, _⟩ => ⟨S16x1024x512, .f32⟩
  | .hbm, ⟨6, _⟩ => ⟨S_, .f32⟩
  | .hbm, ⟨7, _⟩ => ⟨S16x1024, .f32⟩
  | .hbm, ⟨8, _⟩ => ⟨S16x1024x1024, .f32⟩
  | .hbm, ⟨9, _⟩ => ⟨S16x1024x1, .f32⟩
  | .hbm, ⟨10, _⟩ => ⟨S16x1x1024, .f32⟩
  | .hbm, ⟨11, _⟩ => ⟨S16x1024x1024, .f32⟩
  | .hbm, ⟨12, _⟩ => ⟨S16x1024x1024, .f32⟩
  | .hbm, ⟨13, _⟩ => ⟨S16x1024x1024, .f32⟩
  | .hbm, ⟨14, _⟩ => ⟨S_, .f32⟩
  | .hbm, ⟨15, _⟩ => ⟨S16x1024x1024, .f32⟩
  | .hbm, ⟨16, _⟩ => ⟨S16x1024x1024, .f32⟩
  | .hbm, ⟨17, _⟩ => ⟨S16x1024x1024, .f32⟩
  | .hbm, ⟨18, _⟩ => ⟨S_, .f32⟩
  | .hbm, ⟨19, _⟩ => ⟨S16x1024x1024, .f32⟩
  | .hbm, ⟨20, _⟩ => ⟨S16x1024x1024, .f32⟩
  | .hbm, ⟨21, _⟩ => ⟨S16x1024x1024, .f32⟩
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S16x1024x512_S16x1024_d2 : S16x1024x512.ReducesTo [2] S16x1024
  h_S_ : 0 < S_.numel
  bcast_S16x1024_S16x1024x1_0_1 : S16x1024.BroadcastsInDim S16x1024x1 (![0, 1] : Fin 2 → Fin S16x1024x1.rank)
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  bcast_S_S16x1024x1024 : S_.BroadcastsInDim S16x1024x1024 (![] : Fin 0 → Fin S16x1024x1024.rank)
  dot_S16x1024x512_S16x1024x512_S16x1024x1024_2_2_1_1_0_0_wf : DotDims.WF S16x1024x512 S16x1024x512 S16x1024x1024 [2] [2] [1] [1] [0] [0]

variable [Facts₀]

def dot_S16x1024x512_S16x1024x512_S16x1024x1024_2_2_1_1_0_0 : DotDims S16x1024x512 S16x1024x512 S16x1024x1024 where
  lhsContracting := [2]
  rhsContracting := [2]
  lhsNonContracting := [1]
  rhsNonContracting := [1]
  lhsBatch := [0]
  rhsBatch := [0]
  wf := dot_S16x1024x512_S16x1024x512_S16x1024x1024_2_2_1_1_0_0_wf

class Facts : Prop extends Facts₀ where

variable [Facts]
-- ==== Proof.Spec.lean ====
/-
  The batched pairwise Euclidean distance, as one function of the two argument arrays.

  For a batch `b`, an audio row `p` and a visual row `q` the entry is
  `sqrt (max ((‖a_{b,p}‖² + ‖v_{b,q}‖²) - 2 · ⟨a_{b,p}, v_{b,q}⟩) 0)`
  on the extended reals, where `‖x‖²` is the sum over the 512 features of the squares and `⟨·,·⟩` the sum
  of the products. The constants `2` and `0` are kept as the binary words both programs print, so that
  neither is ever evaluated.
-/
import Idealize.ShloMosaic.PureOps.Ideal
import Idealize.ShloMosaic.Lib.ValueIdx

noncomputable section

open scoped BigOperators

namespace Cert.Dist

open Idealize.ShloMosaic Idealize.ShloMosaic.ValueIdx

/-- The squared norm of row `r` of batch `b`: the sum over the features of the squares. -/
def rowSq (x : (⟨3, ![16, 1024, 512]⟩ : Shape).Idx → EReal) (b : Fin 16) (r : Fin 1024) : EReal :=
  ∑ k : Fin 512, x (ix3 b r k) * x (ix3 b r k)

/-- The inner product of audio row `p` and visual row `q` of batch `b`. -/
def inner (a v : (⟨3, ![16, 1024, 512]⟩ : Shape).Idx → EReal) (b : Fin 16) (p q : Fin 1024) : EReal :=
  ∑ k : Fin 512, a (ix3 b p k) * v (ix3 b q k)

/-- One entry of the result from the two squared norms and the inner product. -/
def entry (aa vv av : EReal) : EReal :=
  Ideal.sqrt (max ((aa + vv) - Ideal.ofBits .f32 0x40000000#32 * av) (Ideal.ofBits .f32 0x00000000#32))

/-- The whole result array: entry `(b, p, q)` is the distance between audio row `p` and visual row `q` of batch `b`. -/
def dist (a v : (⟨3, ![16, 1024, 512]⟩ : Shape).Idx → EReal) : (⟨3, ![16, 1024, 1024]⟩ : Shape).Idx → EReal :=
  fun j => entry (rowSq a (j 0) (j 1)) (rowSq v (j 0) (j 2)) (inner a v (j 0) (j 1) (j 2))

theorem dist_ix3 (a v : (⟨3, ![16, 1024, 512]⟩ : Shape).Idx → EReal) (b : Fin 16) (p q : Fin 1024) :
    dist a v (ix3 b p q) = entry (rowSq a b p) (rowSq v b q) (inner a v b p q) := rfl

end Cert.Dist

end
-- ==== Proof.LibColumn.lean ====
/-
  Two layout operations read at an index, for a row-wise quantity kept as a column: a vector of length `a`
  cast to an `a × 1` column reads its entry `i` at `(i, 0)`, and an `a × 1` column broadcast to `a × b`
  reads, at `(p, c)`, the column's entry `p`. Both hold for any element type.
-/
import Idealize.ShloMosaic.Lib.ValueIdx
import Idealize.ShloMosaic.Lib.Pipeline.Value

noncomputable section

namespace Cert.Lib.Column

open Idealize.ShloMosaic Idealize.ShloMosaic.ValueIdx

variable {α : Type}

/-- A length-`a` vector cast to an `a × 1` column reads, at `(i, u)`, the vector at `i`: the row-major position of
    `(i, u)` in `[a, 1]` is `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column's entry `p`: the row coordinate is kept
    (or is `0` anyway when `a = 1`), the unit axis reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.KernelPay.lean ====
/-
  One block of the kernel's result, read at an index.

  At a grid point the body holds a `512 × 512` block of audio rows and the batch's whole `1024 × 512` visual
  array (each behind a leading unit axis). Entry `(p, q)` of what it stores is
  `sqrt (max ((Σ_k a(p,k)² + Σ_k v(q,k)²) - 2 · Σ_k a(p,k)·v(q,k)) 0)`:
  the two lane sums are sums over the 512 features, the row sums are laid out as a column and as a row and broadcast
  over the `512 × 1024` tile, and the matrix product contracts the feature axis of BOTH operands, into a zero
  accumulator. The change of float format before the product is the identity on the extended reals.
-/
import proofs.«175586_j22548578304599_1_alg».proof.Proof.Gen.KernelIdeal.Skeleton
import proofs.«175586_j22548578304599_1_alg».proof.Proof.Spec
import proofs.«175586_j22548578304599_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockDist

open Cert.KernelIdeal Cert.KernelIdeal.Gen Idealize.ShloMosaic Idealize.ShloMosaic.ValueIdx Cert.Lib.Column

/-! ## The two row sums, as laid out over the tile -/

/-- The audio rows' squared norms, summed along the lanes, kept as a column and broadcast across the tile:
    at `(p, q)` the sum over the features of the squares of row `p`. -/
theorem audioSq_apply (w : FVec Ideal S512x512 .f32) (p : Fin 512) (q : Fin 1024) :
    broadcastTo S512x1024 (shapeCast S512x1 (multiReduction .add [1] S512 (mulf w w) 0x00000000#32 reduces_S512x512_S512 (.inl rfl) rfl) shapeCasts_S512_S512x1) broadcasts_S512x1_S512x1024 (ix2 p q)
      = ∑ k : Fin 512, w (ix2 p k) * w (ix2 p k) := by
  refine (broadcastTo_a1_ab_apply _ _ p q).trans ?_
  refine (shapeCast_a_a1_apply _ _ p 0).trans ?_
  refine (Ideal.multiReduction_add_single (mulf w w) 0x00000000#32 reduces_S512x512_S512 (.inl rfl) rfl (ix1 p)).trans ?_
  refine Finset.sum_congr rfl fun k _ => ?_
  exact congrArg (fun i => w i * w i) (funext fun a => Fin.ext (by match a with | ⟨0, _⟩ => rfl | ⟨1, _⟩ => rfl))

/-- The visual rows' squared norms, summed along the lanes, kept as a row and broadcast down the tile:
    at `(p, q)` the sum over the features of the squares of row `q`. -/
theorem visualSq_apply (w : FVec Ideal S1024x512 .f32) (p : Fin 512) (q : Fin 1024) :
    broadcastTo S512x1024 (shapeCast S1x1024 (multiReduction .add [1] S1024 (mulf w w) 0x00000000#32 reduces_S1024x512_S1024 (.inl rfl) rfl) shapeCasts_S1024_S1x1024) broadcasts_S1x1024_S512x1024 (ix2 p q)
      = ∑ k : Fin 512, w (ix2 q k) * w (ix2 q k) := by
  refine (broadcastTo_1b_ab_apply _ _ p q).trans ?_
  refine (shapeCast_a_1a_apply _ _ 0 q).trans ?_
  refine (Ideal.multiReduction_add_single (mulf w w) 0x00000000#32 reduces_S1024x512_S1024 (.inl rfl) rfl (ix1 q)).trans ?_
  refine Finset.sum_congr rfl fun k _ => ?_
  exact congrArg (fun i => w i * w i) (funext fun a => Fin.ext (by match a with | ⟨0, _⟩ => rfl | ⟨1, _⟩ => rfl))

/-! ## The matrix product: both operands contracted along their feature axis -/

/-- The left operand's row coordinate is the output's row. -/
theorem lhs_cross_0 (i : S512x1024.Idx) (k : dot_S512x512_S1024x512_S512x1024_1_1_0_0_n_n.contr.Idx) :
    (dot_S512x512_S1024x512_S512x1024_1_1_0_0_n_n.lhsIdx i k 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
/-- The left operand's feature coordinate is the contraction index. -/
theorem lhs_cross_1 (i : S512x1024.Idx) (k : dot_S512x512_S1024x512_S512x1024_1_1_0_0_n_n.contr.Idx) :
    (dot_S512x512_S1024x512_S512x1024_1_1_0_0_n_n.lhsIdx i k 1).val = (k ⟨0, by decide⟩).val :=
  dot_S512x512_S1024x512_S512x1024_1_1_0_0_n_n.lhsIdx_val_of_single rfl i k
/-- The right operand's row coordinate is the output's COLUMN: the product is with the transpose. -/
theorem rhs_cross_0 (i : S512x1024.Idx) (k : dot_S512x512_S1024x512_S512x1024_1_1_0_0_n_n.contr.Idx) :
    (dot_S512x512_S1024x512_S512x1024_1_1_0_0_n_n.rhsIdx i k 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
/-- The right operand's feature coordinate is the contraction index. -/
theorem rhs_cross_1 (i : S512x1024.Idx) (k : dot_S512x512_S1024x512_S512x1024_1_1_0_0_n_n.contr.Idx) :
    (dot_S512x512_S1024x512_S512x1024_1_1_0_0_n_n.rhsIdx i k 1).val = (k ⟨0, by decide⟩).val :=
  dot_S512x512_S1024x512_S512x1024_1_1_0_0_n_n.rhsIdx_val_of_single rfl i k

/-- The product into a zero accumulator, at `(p, q)`: the inner product of row `p` of the left operand and row `q`
    of the right one, the contraction index re-indexed by its one coordinate. -/
theorem cross_apply (l : FVec Ideal S512x512 .bf16) (r : FVec Ideal S1024x512 .bf16) (p : Fin 512) (q : Fin 1024) :
    matmul dot_S512x512_S1024x512_S512x1024_1_1_0_0_n_n none l r (constant S512x1024 .f32 0x00000000#32) (ix2 p q)
      = ∑ k : Fin 512, l (ix2 p k) * r (ix2 q k) := by
  simp only [matmul]
  rw [Ideal.matmul_constant_zero_apply, ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 p q) ((contrEquiv1 dot_S512x512_S1024x512_S512x1024_1_1_0_0_n_n 512 rfl rfl).symm k) = ix2 p k := funext fun a => Fin.ext (by
    match a with
    | ⟨0, _⟩ => exact lhs_cross_0 _ _
    | ⟨1, _⟩ => exact (lhs_cross_1 _ _).trans hk)
  have er : dot_S512x512_S1024x512_S512x1024_1_1_0_0_n_n.rhsIdx (ix2 p q) ((contrEquiv1 dot_S512x512_S1024x512_S512x1024_1_1_0_0_n_n 512 rfl rfl).symm k) = ix2 q k := funext fun a => Fin.ext (by
    match a with
    | ⟨0, _⟩ => exact rhs_cross_0 _ _
    | ⟨1, _⟩ => exact (rhs_cross_1 _ _).trans hk)
  rw [el, er]

/-! ## The stored tile at an index -/

/-- Entry `(u, p, q)` of the tile the body stores, from the audio block `x0` and the visual block `x1`: the distance
    entry of the squared norm of audio row `p`, the squared norm of visual row `q` and their inner product. -/
theorem pay_apply (x0 : Vec Ideal S1x512x512 .f32) (x1 : Vec Ideal S1x1024x512 .f32) (u : Fin 1) (p : Fin 512) (q : Fin 1024) :
    k0_pay1 (F := Ideal) x0 x1 (ix3 u p q)
      = Cert.Dist.entry (∑ k : Fin 512, x0 (ix3 (0 : Fin 1) p k) * x0 (ix3 (0 : Fin 1) p k))
          (∑ k : Fin 512, x1 (ix3 (0 : Fin 1) q k) * x1 (ix3 (0 : Fin 1) q k))
          (∑ k : Fin 512, x0 (ix3 (0 : Fin 1) p k) * x1 (ix3 (0 : Fin 1) q k)) := by
  unfold k0_pay1
  dsimp only
  refine (shapeCast_ab_1ab_apply _ _ u p q).trans ?_
  have hA := audioSq_apply (shapeCast S512x512 x0 shapeCasts_S1x512x512_S512x512) p q
  have hB := visualSq_apply (shapeCast S1024x512 x1 shapeCasts_S1x1024x512_S1024x512) p q
  have hC := cross_apply (truncf .bf16 (shapeCast S512x512 x0 shapeCasts_S1x512x512_S512x512) bitsLt_bf16_f32)
    (truncf .bf16 (shapeCast S1024x512 x1 shapeCasts_S1x1024x512_S1024x512) bitsLt_bf16_f32) p q
  show Cert.Dist.entry _ _ _ = _
  rw [hA, hB, hC]
  simp only [truncf_apply, shapeCast_1ab_ab_apply]

end Cert.KernelIdeal.BlockDist

end
-- ==== Proof.KernelDist.lean ====
/-
  From tiles to the whole array.

  The grid has one point per batch `b` and per half `h` of the audio rows. At that point the output window's
  block is rows `512·h … 512·h + 511` of batch `b`, all 1024 columns; the audio window's block is the same rows of
  batch `b`, and the visual window's block is the whole of batch `b`, whichever half. So entry `(p, q)` of the
  stored tile is the distance entry `(b, 512·h + p, q)` of the two argument arrays, the 32 tiles cover the
  result array, and after the run the array is the distance array.
-/
import proofs.«175586_j22548578304599_1_alg».proof.Proof.Gen.KernelIdeal.Value
import proofs.«175586_j22548578304599_1_alg».proof.Proof.KernelPay
import proofs.«175586_j22548578304599_1_alg».proof.Proof.Spec

noncomputable section

open scoped BigOperators

namespace Cert.KernelIdeal.ArrayDist

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every load and the store of the body start at the origin of their buffer. -/
theorem origin : (![0, 0, 0] : Fin 3 → Nat) = fun _ => 0 := funext fun a => by fin_cases a <;> rfl

/-- The three windows' block indices at a grid point, decided over the 32 points: the audio block has the output's
    batch and half, the visual block the output's batch and is otherwise the whole array, and the output's batch and
    half stay in range. -/
theorem block_indices : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 15 ∧ win0_2.index t (1 : Fin 3) ≤ 1 :=
  (by decide +kernel : ∀ t : Fin grid0.N, _)

/-- Every batch and half is some grid point's. -/
theorem block_onto : ∀ (b : Fin 16) (h : Fin 2), ∃ t : Fin cfg0.N, win0_2.index t = ![b.val, h.val, 0] :=
  (by decide +kernel : ∀ (b : Fin 16) (h : Fin 2), ∃ t : Fin grid0.N, win0_2.index t = ![b.val, h.val, 0])

/-- A stored tile's entry from blocks that are rows of the argument arrays: if the audio block's row `p` is row
    `row p` of batch `b` of `a` and the visual block's row `q` is row `q` of batch `b` of `v`, entry `(p, q)` of the
    tile is the distance entry `(b, row p, q)`. -/
theorem tile_entry (x0 : Vec Ideal S1x512x512 .f32) (x1 : Vec Ideal S1x1024x512 .f32)
    (a v : (⟨3, ![16, 1024, 512]⟩ : Shape).Idx → EReal) (b : Fin 16) (row : Fin 512 → Fin 1024)
    (hx0 : ∀ (p : Fin 512) (k : Fin 512), x0 (ix3 (0 : Fin 1) p k) = a (ix3 b (row p) k))
    (hx1 : ∀ (q : Fin 1024) (k : Fin 512), x1 (ix3 (0 : Fin 1) q k) = v (ix3 b q k))
    (u : Fin 1) (p : Fin 512) (q : Fin 1024) :
    k0_pay1 (F := Ideal) x0 x1 (ix3 u p q) = Cert.Dist.dist a v (ix3 b (row p) q) := by
  rw [Cert.KernelIdeal.BlockDist.pay_apply, Cert.Dist.dist_ix3]
  unfold Cert.Dist.rowSq Cert.Dist.inner
  simp only [hx0, hx1]

/-- What a grid point writes back is its tile of the distance array of the argument arrays. -/
theorem flushed_dist (c : Dev nD) (t : Fin cfg0.N) :
    (dats m 0 c).flushed 2 t
      = ((cfg0.win 2).blk t).view.read (Elt Ideal) (Cert.Dist.dist (V m c main_arg0) (V m c main_arg1)) := by
  rw [flushed2]
  unfold out0_2
  rw [View.canon_unit_zero origin]
  simp only [View.ld_unit_zero (S := S1x512x512) origin, View.ld_unit_zero (S := S1x1024x512) origin]
  obtain ⟨e00, e01, e02, e10, e11, e12, e22, hb15, hh1⟩ := block_indices t
  have hb : win0_2.index t (0 : Fin 3) < 16 := by omega
  have hrow : ∀ p : Fin 512, win0_2.index t (1 : Fin 3) * 512 + p.val < 1024 := fun p => by have := p.isLt; omega
  refine funext fun (j : S1x512x1024.Idx) => ?_
  obtain ⟨u, p, q, rfl⟩ : ∃ (u : Fin 1) (p : Fin 512) (q : Fin 1024), j = ix3 u p q := ⟨j 0, j 1, j 2, eq_ix3 j⟩
  have hemb : ((cfg0.win 2).blk t).view.emb (ix3 u p q)
      = ix3 (⟨win0_2.index t (0 : Fin 3), hb⟩ : Fin 16) (⟨win0_2.index t (1 : Fin 3) * 512 + p.val, hrow p⟩ : Fin 1024) q := by
    funext ax; apply Fin.ext
    match ax with
    | ⟨0, _⟩ => show win0_2.index t (0 : Fin 3) * 1 + 1 * u.val = win0_2.index t (0 : Fin 3); omega
    | ⟨1, _⟩ => show win0_2.index t (1 : Fin 3) * 512 + 1 * p.val = win0_2.index t (1 : Fin 3) * 512 + p.val; omega
    | ⟨2, _⟩ => show win0_2.index t (2 : Fin 3) * 1024 + 1 * q.val = q.val; omega
  show k0_pay1 (F := Ideal) (iblk m c 0 t) (iblk m c 1 t) (ix3 u p q)
    = Cert.Dist.dist (V m c main_arg0) (V m c main_arg1) (((cfg0.win 2).blk t).view.emb (ix3 u p q))
  refine (tile_entry (iblk m c 0 t) (iblk m c 1 t) (V m c main_arg0) (V m c main_arg1)
    (⟨win0_2.index t (0 : Fin 3), hb⟩ : Fin 16) (fun p => (⟨win0_2.index t (1 : Fin 3) * 512 + p.val, hrow p⟩ : Fin 1024))
    (fun p k => ?_) (fun q k => ?_) u p q).trans
    (congrArg (Cert.Dist.dist (V m c main_arg0) (V m c main_arg1)) hemb.symm)
  · show V m c main_arg0 (((cfg0.win 0).blk t).view.emb (ix3 (0 : Fin 1) p k)) = _
    refine congrArg (V m c main_arg0) (funext fun ax => Fin.ext ?_)
    match ax with
    | ⟨0, _⟩ => show win0_0.index t (0 : Fin 3) * 1 + 1 * 0 = win0_2.index t (0 : Fin 3); omega
    | ⟨1, _⟩ => show win0_0.index t (1 : Fin 3) * 512 + 1 * p.val = win0_2.index t (1 : Fin 3) * 512 + p.val; omega
    | ⟨2, _⟩ => show win0_0.index t (2 : Fin 3) * 512 + 1 * k.val = k.val; omega
  · show V m c main_arg1 (((cfg0.win 1).blk t).view.emb (ix3 (0 : Fin 1) q k)) = _
    refine congrArg (V m c main_arg1) (funext fun ax => Fin.ext ?_)
    match ax with
    | ⟨0, _⟩ => show win0_1.index t (0 : Fin 3) * 1 + 1 * 0 = win0_2.index t (0 : Fin 3); omega
    | ⟨1, _⟩ => show win0_1.index t (1 : Fin 3) * 1024 + 1 * q.val = q.val; omega
    | ⟨2, _⟩ => show win0_1.index t (2 : Fin 3) * 512 + 1 * k.val = k.val; omega

/-- An index of the result array is in a grid point's tile iff each coordinate is in the tile's range on its axis. -/
theorem mem_tile (t : Fin cfg0.N) (i : S16x1024x1024.Idx) :
    i ∈ ((cfg0.win 2).blk t).view.set ↔ ∀ a : Fin 3, win0_2.index t a * S1x512x1024.size a ≤ (i a).val
      ∧ (i a).val < win0_2.index t a * S1x512x1024.size a + S1x512x1024.size a := by
  show i ∈ ((View.whole main_v0).slice (win0_2.rect t)).set ↔ _
  rw [View.set_slice_whole, Rect.mem_set_unit]
  exact Iff.rfl

/-- The tiles cover the result array: index `(b, r, q)` lies in the tile of batch `b` and half `r / 512`. -/
theorem tiles_cover (i : S16x1024x1024.Idx) :
    ∃ t : Fin cfg0.N, (cfg0.win 2).flush t = true ∧ i ∈ ((cfg0.win 2).blk t).view.set := by
  have hi0 : (i 0).val < 16 := (i 0).isLt
  have hi1 : (i 1).val < 1024 := (i 1).isLt
  have hi2 : (i 2).val < 1024 := (i 2).isLt
  obtain ⟨t, ht⟩ := block_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- After the run the result array is the distance array of the two argument arrays as launched. -/
theorem final_dist (c : Dev nD) :
    (dats m 0 c).arrAt 2 cfg0.N
      = Cert.Dist.dist (m ((c : Thread nD τ).loc main_arg0)) (m ((c : Thread nD τ).loc main_arg1)) :=
  (dats m 0 c).arrAt_eq_of_cover 2 (Cert.Dist.dist (V m c main_arg0) (V m c main_arg1))
    (fun t _ => flushed_dist m c t) tiles_cover

/-- The kernel's run: it terminates with the result array at the distance array and the arguments unchanged. -/
theorem run : θ_run defs (onTc (τ := τ) (main (F := Ideal))) ⟨m, fun _ => 0, ρ⟩ fun r => ∀ c : Dev nD,
      r.2.mem ((c : Thread nD τ).loc main_v0)
        = Cert.Dist.dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_dist m c), (h c).2⟩) (run_blocks m ρ)

end Cert.KernelIdeal.ArrayDist

end
-- ==== Proof.RefDist.lean ====
/-
  The reference computes the specification.

  Its result at `(b, p, q)` is read one operation at a time: the square root of the maximum with zero of
  `(A + V) - 2 · C`, where `A` is the host's sum over the features of the squares of audio row `(b, p)` (from the
  initial value zero), `V` the same for visual row `(b, q)`, each broadcast over the missing axis, and `C` the
  batched inner product. A sum from the initial value zero is the sum, and every operation is the extended
  reals' own, so this is the distance entry.
-/
import proofs.«175586_j22548578304599_1_alg».proof.Proof.Gen.ReferenceIdeal.Read
import proofs.«175586_j22548578304599_1_alg».proof.Proof.Spec

noncomputable section

open scoped BigOperators

namespace Cert.ReferenceIdeal.RefDist

open Cert.ReferenceIdeal Cert.ReferenceIdeal.Gen Cert.ReferenceIdeal.Read Idealize.ShloMosaic Idealize.ShloMosaic.ValueIdx

/-- The audio norm's operand index at `(b, p, q)`, through the two broadcasts: row `(b, p)`, feature `k`. -/
theorem audio_idx (b : Fin 16) (p q : Fin 1024) (k : Fin 512) :
    idx_main_v1 (idx_main_v5 (idx_main_v7 (ix3 b p q))) k = ix3 b p k :=
  funext fun a => Fin.ext (by match a with | ⟨0, _⟩ => rfl | ⟨1, _⟩ => rfl | ⟨2, _⟩ => rfl)

/-- The visual norm's operand index at `(b, p, q)`, through the two broadcasts: row `(b, q)`, feature `k`. -/
theorem visual_idx (b : Fin 16) (p q : Fin 1024) (k : Fin 512) :
    idx_main_v3 (idx_main_v6 (idx_main_v8 (ix3 b p q))) k = ix3 b q k :=
  funext fun a => Fin.ext (by match a with | ⟨0, _⟩ => rfl | ⟨1, _⟩ => rfl | ⟨2, _⟩ => rfl)

/-- The inner product's left operand index: audio row `(b, p)`, feature `k`. -/
theorem inner_lidx (b : Fin 16) (p q : Fin 1024) (k : Fin 512) : lidx_main_v4 (ix3 b p q) k = ix3 b p k :=
  funext fun a => Fin.ext (by match a with | ⟨0, _⟩ => rfl | ⟨1, _⟩ => rfl | ⟨2, _⟩ => rfl)

/-- The inner product's right operand index: visual row `(b, q)`, feature `k`. -/
theorem inner_ridx (b : Fin 16) (p q : Fin 1024) (k : Fin 512) : ridx_main_v4 (ix3 b p q) k = ix3 b q k :=
  funext fun a => Fin.ext (by match a with | ⟨0, _⟩ => rfl | ⟨1, _⟩ => rfl | ⟨2, _⟩ => rfl)

/-- The reference's last stage is the distance array of its two arguments. -/
theorem ref_eq (x0 x1 : (⟨S16x1024x512, .f32⟩ : BufTy).Contents (Elt Ideal)) :
    val_main_v15 (F := Ideal) x0 x1 = Cert.Dist.dist x0 x1 := by
  funext i
  obtain ⟨b, p, q, rfl⟩ : ∃ (b : Fin 16) (p q : Fin 1024), i = ix3 b p q := ⟨i 0, i 1, i 2, eq_ix3 i⟩
  rw [Cert.Dist.dist_ix3, val_main_v15_apply, val_main_v14_apply, val_main_v12_apply, val_main_v13_apply, val_main_cst_2_apply,
    val_main_v9_apply, val_main_v11_apply, val_main_v10_apply, val_main_cst_1_apply, val_main_v4_apply,
    val_main_v7_apply, val_main_v5_apply, val_main_v1_apply, val_main_cst_apply,
    val_main_v8_apply, val_main_v6_apply, val_main_v3_apply, val_main_cst_0_apply]
  simp only [val_main_v0_apply, val_main_v2_apply, audio_idx, visual_idx, inner_lidx, inner_ridx,
    Cert.Dist.entry, Cert.Dist.rowSq, Cert.Dist.inner,
    Ideal.hostUnary_sqrt_def, Ideal.maximumf_def, Ideal.subf_def, Ideal.addf_def, Ideal.mulf_def, Ideal.ofBits_def,
    Ideal.ofBits_zero_f32, zero_add]

end Cert.ReferenceIdeal.RefDist

end
-- ==== Proof.lean ====
/-
  The kernel and its reference compute one function: the batched pairwise Euclidean distance.

  For audio rows `a` and visual rows `v` of shape `16 × 1024 × 512`, the result at `(b, p, q)` is
  `sqrt (max ((‖a_{b,p}‖² + ‖v_{b,q}‖²) - 2 · ⟨a_{b,p}, v_{b,q}⟩) 0)` on the extended reals (Proof/Spec.lean).
  The kernel computes it tile by tile, one batch and one half of the audio rows per grid point: the squared
  norms by lane sums, the inner products by one matrix product that contracts the feature axis of both operands
  (Proof/KernelPay.lean), and the 32 tiles cover the result array (Proof/KernelDist.lean). The reference
  computes it by two host sums, a batched inner product and broadcasts (Proof/RefDist.lean). Both sides apply the
  same operations to the same sums in the same order, so no law of the extended reals beyond `0 + x = x` is
  needed and the finiteness of the inputs is never used. The kernel's change of float format before its
  matrix product is the identity on the extended reals, and the idealization rewrote no operation, so the
  kernel's idealization is its own text.
-/
import proofs.«175586_j22548578304599_1_alg».proof.Defs
import proofs.«175586_j22548578304599_1_alg».proof.Proof.Gen.Kernel
import proofs.«175586_j22548578304599_1_alg».proof.Proof.Gen.Kernel.Skeleton
import proofs.«175586_j22548578304599_1_alg».proof.Proof.Gen.Kernel.Launch
import proofs.«175586_j22548578304599_1_alg».proof.Proof.Gen.Kernel.Points
import proofs.«175586_j22548578304599_1_alg».proof.Proof.Gen.Kernel.Frame
import proofs.«175586_j22548578304599_1_alg».proof.Proof.Gen.KernelIdeal
import proofs.«175586_j22548578304599_1_alg».proof.Proof.Gen.KernelIdeal.Skeleton
import proofs.«175586_j22548578304599_1_alg».proof.Proof.Gen.KernelIdeal.Launch
import proofs.«175586_j22548578304599_1_alg».proof.Proof.Gen.KernelIdeal.Points
import proofs.«175586_j22548578304599_1_alg».proof.Proof.Gen.KernelIdeal.Frame
import proofs.«175586_j22548578304599_1_alg».proof.Proof.Gen.ReferenceIdeal
import proofs.«175586_j22548578304599_1_alg».proof.Proof.Gen.Pre_finite_inputs
import proofs.«175586_j22548578304599_1_alg».proof.Proof.Gen.KernelIdeal.Value
import proofs.«175586_j22548578304599_1_alg».proof.Proof.Gen.ReferenceIdeal.Run
import proofs.«175586_j22548578304599_1_alg».proof.Proof.Gen.ReferenceIdeal.Read
import proofs.«175586_j22548578304599_1_alg».proof.Proof.Spec
import proofs.«175586_j22548578304599_1_alg».proof.Proof.KernelDist
import proofs.«175586_j22548578304599_1_alg».proof.Proof.RefDist
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel [Cert.Kernel.Facts] [Cert.Pre_finite_inputs.Facts] : Cert.frame_Kernel :=
  fun m ρ _ => Cert.Kernel.Gen.frame m ρ

/-- So does the kernel read on the extended reals. -/
theorem frame_kernelIdeal [Cert.KernelIdeal.Facts] [Cert.Pre_finite_inputs.Facts] : Cert.frame_KernelIdeal :=
  fun m ρ _ => Cert.KernelIdeal.Gen.frame m ρ

/-- The reference has no kernel: its frame is its run with the result forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the two arguments, the kernel's result array and the reference's both end at the
    distance array of the kernel's arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Dist.dist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayDist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefDist.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
